-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1600000 : Shape := ⟨2, ![2, 1600000]⟩
abbrev S1600000 : Shape := ⟨1, ![1600000]⟩
abbrev S100000x128 : Shape := ⟨2, ![100000, 128]⟩
abbrev S128x128 : Shape := ⟨2, ![128, 128]⟩
abbrev S128 : Shape := ⟨1, ![128]⟩
abbrev S_ : Shape := ⟨0, ![]⟩

class Facts : Prop where
  bcast_S_S1600000 : S_.BroadcastsInDim S1600000 (![] : Fin 0 → Fin S1600000.rank)
  reducesTo_S1600000_S_d0 : S1600000.ReducesTo [0] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : IVec S2x1600000 32) (main_arg1 : FVec F S1600000 .f32) (main_arg2 : FVec F S100000x128 .f32) (main_arg3 : FVec F S128x128 .f32) (main_arg4 : FVec F S128 .f32) (main_arg5 : FVec F S128x128 .f32) (main_arg6 : FVec F S128 .f32) : IVec S_ 1 :=
  let main_v0 : FVec F S1600000 .f32 := Host.absf main_arg1
  let main_cst : FVec F S_ .f32 := constant S_ .f32 0x7F800000#32
  let main_v1 : FVec F S1600000 .f32 := broadcastInDim S1600000 ![] bcast_S_S1600000 main_cst
  let main_v2 : IVec S1600000 1 := cmpf .olt main_v0 main_v1
  let main_c : IVec S_ 1 := constantI S_ 1 1#1
  let main_v3 : IVec S_ 1 := (fun x v => Host.reduce IntOp.andi x v reducesTo_S1600000_S_d0 h_S_) main_v2 main_c
  let main_v4 : FVec F S100000x128 .f32 := Host.absf main_arg2
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S2x1600000 : Shape := ⟨2, ![2, 1600000]⟩
abbrev S1600000 : Shape := ⟨1, ![1600000]⟩
abbrev S100000x128 : Shape := ⟨2, ![100000, 128]⟩
abbrev S128x128 : Shape := ⟨2, ![128, 128]⟩
abbrev S128 : Shape := ⟨1, ![128]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩

abbrev nBuf : Space → Nat
  | .hbm => 82
  | .vmem => 16
  | .smem => 0
  | _ => 0

abbrev bufTy : (tb : Table) → Fin (tcTables nBuf tb) → BufTy
  | .hbm, ⟨0, _⟩ => ⟨S2x1600000, .i32⟩
  | .hbm, ⟨1, _⟩ => ⟨S1600000, .f32⟩
  | .hbm, ⟨2, _⟩ => ⟨S100000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S100000x128, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x128, .f32⟩
  | .hbm, ⟨74, _⟩ => ⟨S1700000x1, .f32⟩
  | .hbm, ⟨75, _⟩ => ⟨S1700000x128, .f32⟩
  | .hbm, ⟨76, _⟩ => ⟨S1700000x128, .f32⟩
  | .hbm, ⟨77, _⟩ => ⟨S_, .f32⟩
  | .hbm, ⟨78, _⟩ => ⟨S100000x128, .f32⟩
  | .hbm, ⟨79, _⟩ => ⟨S1700000x1, .i32⟩
  | .hbm, ⟨80, _⟩ => ⟨S100000x128, .f32⟩
  | .hbm, ⟨81, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128, .f32⟩
  | .local _ .vmem, ⟨8, _⟩ => ⟨S128x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S128, .f32⟩
  | .local _ .vmem, ⟨14, _⟩ => ⟨S10000x128, .f32⟩
  | .local _ .vmem, ⟨15, _⟩ => ⟨S10000x128, .f32⟩
  | _, _ => ⟨S2x1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_9 : Ref sig .tc := ⟨.hbm, 65, rfl⟩
abbrev main_v45 : Ref sig .tc := ⟨.hbm, 66, rfl⟩
abbrev main_v46 : Ref sig .tc := ⟨.hbm, 67, rfl⟩
abbrev main_c_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S10000x128_S10000x128 : S10000x128.ShapeCasts S10000x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg2) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x1600000 : Shape := ⟨2, ![2, 1600000]⟩
abbrev S1600000 : Shape := ⟨1, ![1600000]⟩
abbrev S100000x128 : Shape := ⟨2, ![100000, 128]⟩
abbrev S128x128 : Shape := ⟨2, ![128, 128]⟩
abbrev S128 : Shape := ⟨1, ![128]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 126
  | .vmem => 0
  | .smem => 0
  | _ => 0

abbrev bufTy : (tb : Table) → Fin (tcTables nBuf tb) → BufTy
  | .hbm, ⟨0, _⟩ => ⟨S2x1600000, .i32⟩
  | .hbm, ⟨1, _⟩ => ⟨S1600000, .f32⟩
  | .hbm, ⟨2, _⟩ => ⟨S100000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000x128, .f32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S100000, .i32⟩
  | .hbm, ⟨72, _⟩ => ⟨S1700000, .i32⟩
  | .hbm, ⟨73, _⟩ => ⟨S1700000, .i32⟩
  | .hbm, ⟨74, _⟩ => ⟨S_, .f32⟩
  | .hbm, ⟨75, _⟩ => ⟨S1700000, .f32⟩
  | .hbm, ⟨76, _⟩ => ⟨S_, .f32⟩
  | .hbm, ⟨77, _⟩ => ⟨S100000, .f32⟩
  | .hbm, ⟨78, _⟩ => ⟨S1700000x1, .i32⟩
  | .hbm, ⟨79, _⟩ => ⟨S100000, .f32⟩
  | .hbm, ⟨80, _⟩ => ⟨S_, .f32⟩
  | .hbm, ⟨81, _⟩ => ⟨S100000, .f32⟩
  | .hbm, ⟨82, _⟩ => ⟨S100000, .i1⟩
  | .hbm, ⟨83, _⟩ => ⟨S100000, .f32⟩
  | .hbm, ⟨84, _⟩ => ⟨S_, .f32⟩
  | .hbm, ⟨85, _⟩ => ⟨S_, .f32⟩
  | .hbm, ⟨86, _⟩ => ⟨S100000, .f32⟩
  | .hbm, ⟨87, _⟩ => ⟨S100000, .f32⟩
  | .hbm, ⟨88, _⟩ => ⟨S_, .i32⟩
  | .hbm, ⟨89, _⟩ => ⟨S1700000, .i32⟩
  | .hbm, ⟨90, _⟩ => ⟨S1700000, .i1⟩
  | .hbm, ⟨91, _⟩ => ⟨S_, .i32⟩
  | .hbm, ⟨92, _⟩ => ⟨S1700000, .i32⟩
  | .hbm, ⟨93, _⟩ => ⟨S1700000, .i32⟩
  | .hbm, ⟨94, _⟩ => ⟨S1700000, .i32⟩
  | .hbm, ⟨95, _⟩ => ⟨S1700000x1, .i32⟩
  | .hbm, ⟨96, _⟩ => ⟨S1700000, .f32⟩
  | .hbm, ⟨97, _⟩ => ⟨S_, .i32⟩
  | .hbm, ⟨98, _⟩ => ⟨S1700000, .i32⟩
  | .hbm, ⟨99, _⟩ => ⟨S1700000, .i1⟩
  | .hbm, ⟨100, _⟩ => ⟨S_, .i32⟩
  | .hbm, ⟨101, _⟩ => ⟨S1700000, .i32⟩
  | .hbm, ⟨102, _⟩ => ⟨S1700000, .i32⟩
  | .hbm, ⟨103, _⟩ => ⟨S1700000, .i32⟩
  | .hbm, ⟨104, _⟩ => ⟨S1700000x1, .i32⟩
  | .hbm, ⟨105, _⟩ => ⟨S1700000, .f32⟩
  | .hbm, ⟨106, _⟩ => ⟨S1700000, .f32⟩
  | .hbm, ⟨107, _⟩ => ⟨S_, .i32⟩
  | .hbm, ⟨108, _⟩ => ⟨S1700000, .i32⟩
  | .hbm, ⟨109, _⟩ => ⟨S1700000, .i1⟩
  | .hbm, ⟨110, _⟩ => ⟨S_, .i32⟩
  | .hbm, ⟨111, _⟩ => ⟨S1700000, .i32⟩
  | .hbm, ⟨112, _⟩ => ⟨S1700000, .i32⟩
  | .hbm, ⟨113, _⟩ => ⟨S1700000, .i32⟩
  | .hbm, ⟨114, _⟩ => ⟨S1700000x1, .i32⟩
  | .hbm, ⟨115, _⟩ => ⟨S1700000x128, .f32⟩
  | .hbm, ⟨116, _⟩ => ⟨S1700000x1, .f32⟩
  | .hbm, ⟨117, _⟩ => ⟨S1700000x128, .f32⟩
  | .hbm, ⟨118, _⟩ => ⟨S1700000x128, .f32⟩
  | .hbm, ⟨119, _⟩ => ⟨S_, .f32⟩
  | .hbm, ⟨120, _⟩ => ⟨S100000x128, .f32⟩
  | .hbm, ⟨121, _⟩ => ⟨S1700000x1, .i32⟩
  | .hbm, ⟨122, _⟩ => ⟨S100000x128, .f32⟩
  | .hbm, ⟨123, _⟩ => ⟨S1x128, .f32⟩
  | .hbm, ⟨124, _⟩ => ⟨S100000x128, .f32⟩
  | .hbm, ⟨125, _⟩ => ⟨S100000x128, .f32⟩
  | _, _ => ⟨S2x1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_c_14 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_15 : Ref sig .tc := ⟨.hbm, 97, rfl⟩
abbrev main_v67 : Ref sig .tc := ⟨.hbm, 98, rfl⟩
abbrev main_v68 : Ref sig .tc := ⟨.hbm, 99, rfl⟩
abbrev main_c_16 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_17 : Ref sig .tc := ⟨.hbm, 107, rfl⟩
abbrev main_v75 : Ref sig .tc := ⟨.hbm, 108, rfl⟩
abbrev main_v76 : Ref sig .tc := ⟨.hbm, 109, rfl⟩
abbrev main_c_18 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_19 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.Spec.lean ====
import proofs.«119664_j30382598652232_1_alg».proof.Proof.Gen.ReferenceIdeal

/-!
The graph convolution both programs compute, as ONE function of the argument arrays.

With `s` the edge sources followed by every node (the self loops) and `d` the edge targets followed by every node,
a node's degree is the number of entries of `d` that name it, `dis` is the degree's inverse square root where the
degree is positive and zero elsewhere, and an entry's weight is `dis` at its source times `dis` at its target.
One layer maps node features `h` to the sum, over the entries whose target is the node, of the row of `h` at the
entry's source scaled by the entry's weight (`agg`). The network is two layers around a ReLU:
`agg (relu (agg (emb · W₁) + b₁) · W₂) + b₂`.

Every piece is spelt with the host operations of the printed reference program, so that the reference's result term
is this function by unfolding, and the kernel program's host stretches between its three matrix regions are the
same pieces applied to the regions' results.
-/

noncomputable section

namespace Cert.GcnSpec

open Cert.ReferenceIdeal Cert.ReferenceIdeal.Gen Idealize.ShloMosaic Idealize.ShloMosaic.TcCoe

variable {F : FTy → Type} [FloatOps F]

/-- Row `r` of the edge list, followed by the node numbers 0 … 99999 (one self loop per node). -/
def srcIdx (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The edge targets, followed by the node numbers. -/
def dstIdx (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A negative index counts from the end: 100000 is added to it. -/
def wrapIdx (s : (⟨S1700000, .i32⟩ : BufTy).Contents (Elt F)) : (⟨S1700000, .i32⟩ : BufTy).Contents (Elt F) :=
  select (cmpi .slt s (broadcastInDim S1700000 ![] bcast_S_S1700000 (constantI S_ 32 0#32))) (addi s (broadcastInDim S1700000 ![] bcast_S_S1700000 (constantI S_ 32 100000#32))) s

/-- A node's degree: ones summed into the node each entry of `d` names. -/
def deg (d : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 d) (broadcastInDim S1700000 ![] bcast_S_S1700000 (constant S_ .f32 0x3F800000#32))

/-- The inverse square root of a degree array where the degree is positive, zero elsewhere. -/
def disOf (g : (⟨S100000, .f32⟩ : BufTy).Contents (Elt F)) : (⟨S100000, .f32⟩ : BufTy).Contents (Elt F) :=
  select (cmpf .ogt g (broadcastInDim S100000 ![] bcast_S_S100000 (constant S_ .f32 0x00000000#32))) (Host.rsqrt g) (broadcastInDim S100000 ![] bcast_S_S100000 (id (constant S_ .f32 0x00000000#32)))

/-- The degree's inverse square root where the degree is positive, zero elsewhere. -/
def dis (d : (⟨S1700000, .i32⟩ : BufTy).Contents (Elt F)) : (⟨S100000, .f32⟩ : BufTy).Contents (Elt F) :=
  disOf (deg d)

/-- An entry's weight from a per-node factor `z`: `z` at its source times `z` at its target. -/
def weights (z : (⟨S100000, .f32⟩ : BufTy).Contents (Elt F)) (s d : (⟨S1700000, .i32⟩ : BufTy).Contents (Elt F)) : (⟨S1700000, .f32⟩ : BufTy).Contents (Elt F) :=
  mulf (Host.gather gather_S100000_S1700000x1_S1700000_n_0_n_n_0_1_1 z (broadcastInDim S1700000x1 ![0] bcast_S1700000_S1700000x1_0 (wrapIdx s))) (Host.gather gather_S100000_S1700000x1_S1700000_n_0_n_n_0_1_1 z (broadcastInDim S1700000x1 ![0] bcast_S1700000_S1700000x1_0 (wrapIdx d)))

/-- An entry's weight: `dis` at its source times `dis` at its target. -/
def norm (s d : (⟨S1700000, .i32⟩ : BufTy).Contents (Elt F)) : (⟨S1700000, .f32⟩ : BufTy).Contents (Elt F) :=
  weights (dis d) s d

/-- One layer's aggregation: each entry's source row of `h`, scaled by the entry's weight `w`, summed into the entry's
    target row. -/
def agg (s d : (⟨S1700000, .i32⟩ : BufTy).Contents (Elt F)) (w : (⟨S1700000, .f32⟩ : BufTy).Contents (Elt F)) (h : (⟨S100000x128, .f32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 d) (mulf (Host.gather gather_S100000x128_S1700000x1_S1700000x128_1_0_n_n_0_1_1128 h (broadcastInDim S1700000x1 ![0] bcast_S1700000_S1700000x1_0 (wrapIdx s))) (broadcastInDim S1700000x128 ![0, 1] bcast_S1700000x1_S1700000x128_0_1 (broadcastInDim S1700000x1 ![0] bcast_S1700000_S1700000x1_0 w)))

/-- Node features times a weight matrix. -/
def dense (x : (⟨S100000x128, .f32⟩ : BufTy).Contents (Elt F)) (w : (⟨S128x128, .f32⟩ : BufTy).Contents (Elt F)) : (⟨S100000x128, .f32⟩ : BufTy).Contents (Elt F) :=
  Host.dotGeneral dot_S100000x128_S128x128_S100000x128_1_0_0_1_n_n none x w

/-- A bias row added to every node's features. -/
def biasAdd (x : (⟨S100000x128, .f32⟩ : BufTy).Contents (Elt F)) (b : (⟨S128, .f32⟩ : BufTy).Contents (Elt F)) : (⟨S100000x128, .f32⟩ : BufTy).Contents (Elt F) :=
  addf x (broadcastInDim S100000x128 ![0, 1] bcast_S1x128_S100000x128_0_1 (broadcastInDim S1x128 ![1] bcast_S128_S1x128_1 b))

/-- The positive part, entry by entry. -/
def relu (x : (⟨S100000x128, .f32⟩ : BufTy).Contents (Elt F)) : (⟨S100000x128, .f32⟩ : BufTy).Contents (Elt F) :=
  maximumf x (broadcastInDim S100000x128 ![] bcast_S_S100000x128 (constant S_ .f32 0x00000000#32))

/-- The two-layer network of the argument arrays. -/
def gcn (e : (⟨S2x1600000, .i32⟩ : BufTy).Contents (Elt F)) (emb : (⟨S100000x128, .f32⟩ : BufTy).Contents (Elt F)) (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F)) : (⟨S100000x128, .f32⟩ : BufTy).Contents (Elt F) :=
  biasAdd (agg (srcIdx e) (dstIdx e) (norm (srcIdx e) (dstIdx e))
    (dense (relu (biasAdd (agg (srcIdx e) (dstIdx e) (norm (srcIdx e) (dstIdx e)) (dense emb w1)) b1)) w2)) b2

end Cert.GcnSpec

end
-- ==== Proof.SpecRead.lean ====
import proofs.«119664_j30382598652232_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
The dense pieces of the graph convolution read at an index, on the extended reals: the feature matrix times a weight
matrix is a sum over the 128 hidden coordinates, the bias add reads the bias at the entry's column, and the positive
part is the maximum with zero.
-/

set_option maxRecDepth 16384

noncomputable section

namespace Cert.GcnSpec

open Cert.ReferenceIdeal Cert.ReferenceIdeal.Gen Idealize.ShloMosaic Idealize.ShloMosaic.TcCoe Idealize.ShloMosaic.ValueIdx

theorem lhs_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem rhs_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem rhs_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- Node features times a weight matrix, at `(r, q)`: the sum over `k` of the features at `(r, k)` times the
    weight at `(k, q)`. -/
theorem dense_apply (x : (⟨S100000x128, .f32⟩ : BufTy).Contents (Elt Ideal)) (w : (⟨S128x128, .f32⟩ : BufTy).Contents (Elt Ideal)) (i : S100000x128.Idx) :
    dense (F := Ideal) x w i
      = ∑ k : Fin 128, x (ix2 (⟨(i 0).val, idx2_lt0 i⟩ : Fin 100000) k) * w (ix2 k (⟨(i 1).val, idx2_lt1 i⟩ : Fin 128)) := by
  unfold dense
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = ix2 (⟨(i 0).val, idx2_lt0 i⟩ : Fin 100000) k := funext fun a => Fin.ext (by
    match a with
    | ⟨0, _⟩ => exact lhs_0 _ _
    | ⟨1, _⟩ => exact (lhs_1 _ _).trans hk)
  have er : dot_S100000x128_S128x128_S100000x128_1_0_0_1_n_n.rhsIdx i ((ValueIdx.contrEquiv1 dot_S100000x128_S128x128_S100000x128_1_0_0_1_n_n 128 rfl rfl).symm k) = ix2 k (⟨(i 1).val, idx2_lt1 i⟩ : Fin 128) := funext fun a => Fin.ext (by
    match a with
    | ⟨0, _⟩ => exact (rhs_0 _ _).trans hk
    | ⟨1, _⟩ => exact rhs_1 _ _)
  rw [el, er]

/-- The bias add at `(r, q)`: the entry plus the bias at `q`. -/
theorem biasAdd_apply (x : (⟨S100000x128, .f32⟩ : BufTy).Contents (Elt Ideal)) (b : (⟨S128, .f32⟩ : BufTy).Contents (Elt Ideal)) (i : S100000x128.Idx) :
    biasAdd (F := Ideal) x b i = x i + b (ix1 (⟨(i 1).val, idx2_lt1 i⟩ : Fin 128)) := by
  unfold biasAdd
  rw [addf_apply]
  refine congrArg (x i + ·) ?_
  rw [broadcastInDim_apply _ bcast_S1x128_S100000x128_0_1 _ i (ix2 (0 : Fin 1) (⟨(i 1).val, idx2_lt1 i⟩ : Fin 128)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])]
  exact broadcastInDim_apply _ bcast_S128_S1x128_1 b _ (ix1 (⟨(i 1).val, idx2_lt1 i⟩ : Fin 128)) (fun a => match a with
    | ⟨0, _⟩ => by show (i 1).val = if (128 : Nat) = 1 then 0 else (i 1).val; rw [if_neg (by decide)])

/-- The positive part at an index: the maximum of the entry and zero. -/
theorem relu_apply (x : (⟨S100000x128, .f32⟩ : BufTy).Contents (Elt Ideal)) (i : S100000x128.Idx) :
    relu (F := Ideal) x i = max (x i) (Ideal.ofBits .f32 0x00000000#32) := by
  unfold relu
  rw [maximumf_apply]
  refine congrArg (max (x i)) ?_
  exact broadcastInDim_apply _ bcast_S_S100000x128 (constant (F := Ideal) S_ .f32 0x00000000#32) i ix0 (fun a => a.elim0)

end Cert.GcnSpec

end
-- ==== Proof.Region0.lean ====
import proofs.«119664_j30382598652232_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-!
The first matrix region (the embedding times the first weight matrix), as one function of the arrays it is
entered with.

The region walks ten grid points; point `t` reads rows `10000 t … 10000 t + 9999` of the embedding and the whole
weight matrix, and writes back those rows times the matrix (the narrowing of both operands before the product is the
identity on extended reals, and the product accumulates into zero). The ten row blocks tile the array, so after the
region the output holds, at `(r, q)`, the sum over `k` of the embedding at `(r, k)` times the weight at `(k, q)`.
-/

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- Rows times a matrix: entry `(r, q)` is `∑ k, x (r, k) · w (k, q)`. -/
def rowsTimes (x : S100000x128.Idx → EReal) (w : S128x128.Idx → EReal) : S100000x128.Idx → EReal :=
  fun i => ∑ k : Fin 128, x (ix2 (⟨(i 0).val, idx2_lt0 i⟩ : Fin 100000) k) * w (ix2 k (⟨(i 1).val, idx2_lt1 i⟩ : Fin 128))

theorem hz : (![0, 0] : Fin 2 → Nat) = fun _ => 0 := funext fun a => by fin_cases a <;> rfl

theorem lhs_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A block's rows times the weight matrix, into a zero accumulator, read at `(p, q)`: the sum over `k` of the
    block at `(p, k)` times the matrix at `(k, q)`. -/
theorem matmul_zero_apply (x : FVec Ideal S10000x128 .bf16) (w : FVec Ideal S128x128 .bf16) (p : Fin 10000) (q : Fin 128) :
    matmul dot_S10000x128_S128x128_S10000x128_1_0_0_1_n_n none x w (constant S10000x128 .f32 0x00000000#32) (ix2 p q)
      = ∑ k : Fin 128, x (ix2 p k) * w (ix2 k q) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact lhs_0 _ _
    | ⟨1, _⟩ => exact (lhs_1 _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The body's payload at `(p, q)` of a block. -/
theorem pay_apply (x0 : Vec Ideal S10000x128 .f32) (x1 : Vec Ideal S128x128 .f32) (p : Fin 10000) (q : Fin 128) :
    k0_pay1 x0 x1 (ix2 p q) = ∑ k : Fin 128, x0 (ix2 p k) * x1 (ix2 k q) := by
  unfold k0_pay1
  exact matmul_zero_apply (truncf .bf16 x0 bitsLt_bf16_f32) (truncf .bf16 x1 bitsLt_bf16_f32) p q

/-- The printed index maps over the grid: the embedding's rows and the output's rows move together, one block per
    point, and the weight block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is its row block of `rowsTimes` of the arrays the region is entered with. -/
theorem flushed_eq (c : Dev nD) (t : Fin cfg0.N) :
    (dat0 V c).flushed 2 t = ((cfg0.win 2).blk t).view.read (Elt Ideal) (rowsTimes (V c main_arg2) (V c main_arg3)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  funext j
  have hj0 : (j 0).val < 10000 := Nat.lt_of_lt_of_le (j 0).isLt ((win0 2).xsize_le (grid0.coords t) 0)
  have hj1 : (j 1).val < 128 := Nat.lt_of_lt_of_le (j 1).isLt ((win0 2).xsize_le (grid0.coords t) 1)
  have e : (win0 2).xinj (grid0.coords t) j = ix2 (⟨(j 0).val, hj0⟩ : Fin 10000) (⟨(j 1).val, hj1⟩ : Fin 128) :=
    funext fun a => by match a with | ⟨0, _⟩ => rfl | ⟨1, _⟩ => rfl
  show k0_pay1 (iblk0 V c 0 t) (iblk0 V c 1 t) ((win0 2).xinj (grid0.coords t) j) = _
  rw [e, pay_apply]
  obtain ⟨e0, e1, e2, e3, e4, e5⟩ := idx_facts t
  show _ = rowsTimes (V c main_arg2) (V c main_arg3) (((cfg0.win 2).blk t).view.emb j)
  unfold rowsTimes
  refine Finset.sum_congr rfl fun k _ => ?_
  have hx : iblk0 V c 0 t (ix2 (⟨(j 0).val, hj0⟩ : Fin 10000) k)
      = V c main_arg2 (ix2 (⟨((((cfg0.win 2).blk t).view.emb j) 0).val, idx2_lt0 _⟩ : Fin 100000) k) := by
    show V c main_arg2 (((cfg0.win 0).blk t).view.emb (ix2 (⟨(j 0).val, hj0⟩ : Fin 10000) k)) = _
    refine congrArg _ (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have hw : iblk0 V c 1 t (ix2 k (⟨(j 1).val, hj1⟩ : Fin 128))
      = V c main_arg3 (ix2 k (⟨((((cfg0.win 2).blk t).view.emb j) 1).val, idx2_lt1 _⟩ : Fin 128)) := by
    show V c main_arg3 (((cfg0.win 1).blk t).view.emb (ix2 k (⟨(j 1).val, hj1⟩ : Fin 128))) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [hx, hw]

/-- An index of the array is in point `t`'s block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v30).slice (win0_2.rect t)).set ↔ _
  rw [View.set_slice_whole, Rect.mem_set_unit]
  exact Iff.rfl

/-- Every row block is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- The ten row blocks tile the array: row `r` lies in the block of point `r / 10000`. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The output array after the region, whole. -/
theorem final (c : Dev nD) : (dat0 V c).arrAt 2 cfg0.N = rowsTimes (V c main_arg2) (V c main_arg3) :=
  (dat0 V c).arrAt_eq_of_cover 2 _ (fun t _ => flushed_eq V c t) cover

end Cert.KernelIdeal.Region0

end
-- ==== Proof.Region1.lean ====
import proofs.«119664_j30382598652232_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-!
The second matrix region (bias, positive part, second weight matrix), as one function of the arrays it is entered
with.

The region walks ten grid points; point `t` reads rows `10000 t … 10000 t + 9999` of the first layer's aggregated
features, the whole bias row and the whole weight matrix, and writes back the positive part of (rows + bias) times
the matrix (the narrowings before the product are the identity on extended reals, and the product accumulates into
zero). The ten row blocks tile the array, so after the region the output holds, at `(r, q)`, the sum over `k` of
`max (x (r, k) + b k) 0` times the weight at `(k, q)`.
-/

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- Rows plus a bias, their positive part, times a matrix: entry `(r, q)` is `∑ k, max (x (r, k) + b k) 0 · w (k, q)`. -/
def biasReluTimes (x : S100000x128.Idx → EReal) (b : S128.Idx → EReal) (w : S128x128.Idx → EReal) : S100000x128.Idx → EReal :=
  fun i => ∑ k : Fin 128, max (x (ix2 (⟨(i 0).val, idx2_lt0 i⟩ : Fin 100000) k) + b (ix1 k)) (Ideal.ofBits .f32 0x00000000#32)
    * w (ix2 k (⟨(i 1).val, idx2_lt1 i⟩ : Fin 128))

theorem hz : (![0, 0] : Fin 2 → Nat) = fun _ => 0 := funext fun a => by fin_cases a <;> rfl
theorem hz1 : (![0] : Fin 1 → Nat) = fun _ => 0 := funext fun a => by fin_cases a; rfl

theorem lhs_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A block's rows times the weight matrix, into a zero accumulator, read at `(p, q)`: the sum over `k` of the
    block at `(p, k)` times the matrix at `(k, q)`. -/
theorem matmul_zero_apply (x : FVec Ideal S10000x128 .bf16) (w : FVec Ideal S128x128 .bf16) (p : Fin 10000) (q : Fin 128) :
    matmul dot_S10000x128_S128x128_S10000x128_1_0_0_1_n_n none x w (constant S10000x128 .f32 0x00000000#32) (ix2 p q)
      = ∑ k : Fin 128, x (ix2 p k) * w (ix2 k q) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact lhs_0 _ _
    | ⟨1, _⟩ => exact (lhs_1 _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The body's payload at `(p, q)` of a block. -/
theorem pay_apply (x0 : Vec Ideal S10000x128 .f32) (x1 : Vec Ideal S128 .f32) (x2 : Vec Ideal S128x128 .f32) (p : Fin 10000) (q : Fin 128) :
    k1_pay1 x0 x1 x2 (ix2 p q)
      = ∑ k : Fin 128, max (x0 (ix2 p k) + x1 (ix1 k)) (Ideal.ofBits .f32 0x00000000#32) * x2 (ix2 k q) := by
  unfold k1_pay1
  refine (matmul_zero_apply _ _ p q).trans ?_
  refine Finset.sum_congr rfl fun k _ => ?_
  rw [truncf_apply, truncf_apply, maximumf_apply, addf_apply, shapeCast_self, broadcastTo_1b_ab_apply, shapeCast_a_1a_apply, broadcast_apply]
  rfl

/-- The printed index maps over the grid: the feature rows and the output rows move together, one block per point,
    and the bias and weight blocks stay. -/
theorem idx_facts : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is its row block of `biasReluTimes` of the arrays the region is entered with. -/
theorem flushed_eq (c : Dev nD) (t : Fin cfg1.N) :
    (dat1 V c).flushed 3 t = ((cfg1.win 3).blk t).view.read (Elt Ideal) (biasReluTimes (V c main_v43) (V c main_arg4) (V c main_arg5)) := by
  show (cfg1.win 3).cut (grid1.coords t) ((dat1 V c).after 3 t) = _
  rw [after1_3]
  unfold out1_3
  rw [View.canon_unit_zero hz]
  simp only [View.ld_unit_zero (S := S10000x128) hz, View.ld_unit_zero (S := S128) hz1, View.ld_unit_zero (S := S128x128) hz]
  funext j
  have hj0 : (j 0).val < 10000 := Nat.lt_of_lt_of_le (j 0).isLt ((win1 3).xsize_le (grid1.coords t) 0)
  have hj1 : (j 1).val < 128 := Nat.lt_of_lt_of_le (j 1).isLt ((win1 3).xsize_le (grid1.coords t) 1)
  have e : (win1 3).xinj (grid1.coords t) j = ix2 (⟨(j 0).val, hj0⟩ : Fin 10000) (⟨(j 1).val, hj1⟩ : Fin 128) :=
    funext fun a => by match a with | ⟨0, _⟩ => rfl | ⟨1, _⟩ => rfl
  show k1_pay1 (iblk1 V c 0 t) (iblk1 V c 1 t) (iblk1 V c 2 t) ((win1 3).xinj (grid1.coords t) j) = _
  rw [e, pay_apply]
  obtain ⟨e0, e1, e2, e3, e4, e5, e6⟩ := idx_facts t
  show _ = biasReluTimes (V c main_v43) (V c main_arg4) (V c main_arg5) (((cfg1.win 3).blk t).view.emb j)
  unfold biasReluTimes
  refine Finset.sum_congr rfl fun k _ => ?_
  have hx : iblk1 V c 0 t (ix2 (⟨(j 0).val, hj0⟩ : Fin 10000) k)
      = V c main_v43 (ix2 (⟨((((cfg1.win 3).blk t).view.emb j) 0).val, idx2_lt0 _⟩ : Fin 100000) k) := by
    show V c main_v43 (((cfg1.win 0).blk t).view.emb (ix2 (⟨(j 0).val, hj0⟩ : Fin 10000) k)) = _
    refine congrArg _ (funext fun a => Fin.ext ?_)
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 128 + 1 * k.val = k.val; omega
  have hb : iblk1 V c 1 t (ix1 k) = V c main_arg4 (ix1 k) := by
    show V c main_arg4 (((cfg1.win 1).blk t).view.emb (ix1 k)) = _
    refine congrArg _ (funext fun a => Fin.ext ?_)
    match a with
    | ⟨0, _⟩ => show win1_1.index t (0 : Fin 1) * 128 + 1 * k.val = k.val; omega
  have hw : iblk1 V c 2 t (ix2 k (⟨(j 1).val, hj1⟩ : Fin 128))
      = V c main_arg5 (ix2 k (⟨((((cfg1.win 3).blk t).view.emb j) 1).val, idx2_lt1 _⟩ : Fin 128)) := by
    show V c main_arg5 (((cfg1.win 2).blk t).view.emb (ix2 k (⟨(j 1).val, hj1⟩ : Fin 128))) = _
    refine congrArg _ (funext fun a => Fin.ext ?_)
    match a with
    | ⟨0, _⟩ => show win1_2.index t (0 : Fin 2) * 128 + 1 * k.val = k.val; omega
    | ⟨1, _⟩ => show win1_2.index t (1 : Fin 2) * 128 + 1 * (j 1).val = win1_3.index t (1 : Fin 2) * 128 + 1 * (j 1).val; omega
  rw [hx, hb, hw]

/-- An index of the array is in point `t`'s block iff each coordinate is in the block's range on its axis. -/
theorem mem_blk (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v44).slice (win1_3.rect t)).set ↔ _
  rw [View.set_slice_whole, Rect.mem_set_unit]
  exact Iff.rfl

/-- Every row block is some point's. -/
theorem idx_onto : ∀ q0 : Fin 10, ∃ t : Fin cfg1.N, win1_3.index t = ![q0.val, 0] :=
  (by decide +kernel : ∀ q0 : Fin 10, ∃ t : Fin grid1.N, win1_3.index t = ![q0.val, 0])

/-- The ten row blocks tile the array: row `r` lies in the block of point `r / 10000`. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := idx_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 128 ≤ (i 1).val ∧ (i 1).val < win1_3.index t (1 : Fin 2) * 128 + 128; omega

/-- The output array after the region, whole. -/
theorem final (c : Dev nD) : (dat1 V c).arrAt 3 cfg1.N = biasReluTimes (V c main_v43) (V c main_arg4) (V c main_arg5) :=
  (dat1 V c).arrAt_eq_of_cover 3 _ (fun t _ => flushed_eq V c t) cover

end Cert.KernelIdeal.Region1

end
-- ==== Proof.Region2.lean ====
import proofs.«119664_j30382598652232_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-!
The third matrix region (the bias add), as one function of the arrays it is entered with.

The region walks ten grid points; point `t` reads rows `10000 t … 10000 t + 9999` of the aggregated features and the
whole bias row, and writes back the same rows with the bias added to every row. The ten row blocks tile the array,
so after the region the output array holds, at `(r, q)`, the input at `(r, q)` plus the bias at `q`.
-/

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The bias added to every row: entry `(r, q)` is `x (r, q) + b q`. -/
def rowBias (x : S100000x128.Idx → EReal) (b : S128.Idx → EReal) : S100000x128.Idx → EReal :=
  fun i => x i + b (ix1 (⟨(i 1).val, idx2_lt1 i⟩ : Fin 128))

theorem hz : (![0, 0] : Fin 2 → Nat) = fun _ => 0 := funext fun a => by fin_cases a <;> rfl
theorem hz1 : (![0] : Fin 1 → Nat) = fun _ => 0 := funext fun a => by fin_cases a; rfl

/-- The body's payload at `(p, q)` of a block: the block's entry plus the bias at `q`. -/
theorem pay_apply (x0 : Vec Ideal S10000x128 .f32) (x1 : Vec Ideal S128 .f32) (p : Fin 10000) (q : Fin 128) :
    k2_pay1 x0 x1 (ix2 p q) = x0 (ix2 p q) + x1 (ix1 q) := by
  unfold k2_pay1
  rw [addf_apply, shapeCast_self, broadcastTo_1b_ab_apply, shapeCast_a_1a_apply]

/-- The printed index maps over the grid: the input rows and the output rows move together, one block per point,
    and the bias block stays. -/
theorem idx_facts : ∀ t : Fin cfg2.N, win2_0.index t (0 : Fin 2) = t.val ∧ win2_0.index t (1 : Fin 2) = 0
    ∧ win2_1.index t (0 : Fin 1) = 0
    ∧ win2_2.index t (0 : Fin 2) = t.val ∧ win2_2.index t (1 : Fin 2) = 0 :=
  (by decide +kernel : ∀ t : Fin grid2.N, _)

/-- What point `t` writes back is its row block of `rowBias` of the arrays the region is entered with. -/
theorem flushed_eq (c : Dev nD) (t : Fin cfg2.N) :
    (dat2 V c).flushed 2 t = ((cfg2.win 2).blk t).view.read (Elt Ideal) (rowBias (V c main_v57) (V c main_arg6)) := by
  show (cfg2.win 2).cut (grid2.coords t) ((dat2 V c).after 2 t) = _
  rw [after2_2]
  unfold out2_2
  rw [View.canon_unit_zero hz]
  simp only [View.ld_unit_zero (S := S10000x128) hz, View.ld_unit_zero (S := S128) hz1]
  funext j
  have hj0 : (j 0).val < 10000 := Nat.lt_of_lt_of_le (j 0).isLt ((win2 2).xsize_le (grid2.coords t) 0)
  have hj1 : (j 1).val < 128 := Nat.lt_of_lt_of_le (j 1).isLt ((win2 2).xsize_le (grid2.coords t) 1)
  have e : (win2 2).xinj (grid2.coords t) j = ix2 (⟨(j 0).val, hj0⟩ : Fin 10000) (⟨(j 1).val, hj1⟩ : Fin 128) :=
    funext fun a => by match a with | ⟨0, _⟩ => rfl | ⟨1, _⟩ => rfl
  show k2_pay1 (iblk2 V c 0 t) (iblk2 V c 1 t) ((win2 2).xinj (grid2.coords t) j) = _
  rw [e, pay_apply]
  obtain ⟨e0, e1, e2, e3, e4⟩ := idx_facts t
  show _ = rowBias (V c main_v57) (V c main_arg6) (((cfg2.win 2).blk t).view.emb j)
  unfold rowBias
  have hx : iblk2 V c 0 t (ix2 (⟨(j 0).val, hj0⟩ : Fin 10000) (⟨(j 1).val, hj1⟩ : Fin 128))
      = V c main_v57 (((cfg2.win 2).blk t).view.emb j) := by
    show V c main_v57 (((cfg2.win 0).blk t).view.emb (ix2 (⟨(j 0).val, hj0⟩ : Fin 10000) (⟨(j 1).val, hj1⟩ : Fin 128))) = _
    refine congrArg _ (funext fun a => Fin.ext ?_)
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 128 + 1 * (j 1).val = win2_2.index t (1 : Fin 2) * 128 + 1 * (j 1).val; omega
  have hb : iblk2 V c 1 t (ix1 (⟨(j 1).val, hj1⟩ : Fin 128))
      = V c main_arg6 (ix1 (⟨((((cfg2.win 2).blk t).view.emb j) 1).val, idx2_lt1 _⟩ : Fin 128)) := by
    show V c main_arg6 (((cfg2.win 1).blk t).view.emb (ix1 (⟨(j 1).val, hj1⟩ : Fin 128))) = _
    refine congrArg _ (funext fun a => Fin.ext ?_)
    match a with
    | ⟨0, _⟩ => show win2_1.index t (0 : Fin 1) * 128 + 1 * (j 1).val = win2_2.index t (1 : Fin 2) * 128 + 1 * (j 1).val; omega
  rw [hx, hb]

/-- An index of the array is in point `t`'s block iff each coordinate is in the block's range on its axis. -/
theorem mem_blk (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v58).slice (win2_2.rect t)).set ↔ _
  rw [View.set_slice_whole, Rect.mem_set_unit]
  exact Iff.rfl

/-- Every row block is some point's. -/
theorem idx_onto : ∀ q0 : Fin 10, ∃ t : Fin cfg2.N, win2_2.index t = ![q0.val, 0] :=
  (by decide +kernel : ∀ q0 : Fin 10, ∃ t : Fin grid2.N, win2_2.index t = ![q0.val, 0])

/-- The ten row blocks tile the array: row `r` lies in the block of point `r / 10000`. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- The output array after the region, whole. -/
theorem final (c : Dev nD) : (dat2 V c).arrAt 2 cfg2.N = rowBias (V c main_v57) (V c main_arg6) :=
  (dat2 V c).arrAt_eq_of_cover 2 _ (fun t _ => flushed_eq V c t) cover

end Cert.KernelIdeal.Region2

end
-- ==== Proof.KernelValue.lean ====
import proofs.«119664_j30382598652232_1_alg».proof.Proof.Gen.KernelIdeal.Frame
import proofs.«119664_j30382598652232_1_alg».proof.Proof.Spec
import proofs.«119664_j30382598652232_1_alg».proof.Proof.SpecRead
import proofs.«119664_j30382598652232_1_alg».proof.Proof.Region0
import proofs.«119664_j30382598652232_1_alg».proof.Proof.Region1
import proofs.«119664_j30382598652232_1_alg».proof.Proof.Region2
import Idealize.ShloMosaic.Lib.StableHlo.Run

/-!
The kernel program's result array, read back through its run: three matrix regions among four stretches of host
operations.

The host stretch before the first region computes, from the edge list alone, the sources `s`, the targets `d` and
the weights `w` of the aggregation; no later operation writes them. The first region leaves `emb · W₁`; the stretch
after it aggregates that (`agg s d w`); the second region leaves `relu (· + b₁) · W₂` of the aggregate; the next
stretch aggregates again; the third region adds `b₂`. Each region's array is the region's whole-array function of
the arrays it was entered with (the three region modules), each of those the dense piece of the specification read at
an index, and each stretch is the specification's aggregation by unfolding. So the result is `GcnSpec.gcn` of the
argument arrays.
-/

set_option maxRecDepth 16384

noncomputable section

namespace Cert.KernelIdeal.KernelValue

open Idealize.ShloMosaic Idealize.ShloMosaic.TcCoe Idealize.ShloMosaic.ValueIdx Idealize.SL.Sem
open Idealize.ShloMosaic.StableHlo
open Cert.KernelIdeal Cert.KernelIdeal.Gen

variable (m : (ℓ : Loc nD τ sig) → Buf (Elt Ideal) ℓ) (ρ : Dev nD → PrngReg)

/-- A buffer that no operation of a host stretch writes keeps its contents across the stretch. -/
theorem keeps {ops : List (HloOp τ sig (Elt Ideal))} {Vl : Valuation τ sig (Elt Ideal)} {b : DevRef τ sig}
    (h : ops.Forall fun op => b ∉ op.writes) : StableHlo.after ops Vl b = Vl b :=
  StableHlo.after_of_forall_not_mem _ _ (List.forall_iff_forall_mem.mp h)

/-- Decides that a literal reference is none of the result buffers of a literal host stretch. -/
macro "no_write" : tactic =>
  `(tactic| (simp only [hostOps0, hostOps0_1, hostOps0_2, hostOps1, hostOps2, List.Forall, StableHlo.nullary_writes,
      StableHlo.unary_writes, StableHlo.binary_writes, StableHlo.ternary_writes, StableHlo.quaternary_writes,
      StableHlo.reshape_writes, StableHlo.binaryIndexed_writes, Finset.mem_singleton]
             repeat' apply And.intro
             all_goals exact StableHlo.devRef_ne_of_ne (by decide)))

/-! ## The host stretches, each from any contents `Wv` it is entered with -/

/-- The where-stretch selects, node by node, between its two operands and zero. -/
theorem stretch_where (Wv : Valuation τ sig (Elt Ideal)) :
    StableHlo.after hostOps0_1 Wv (Proc.devRef .tc main_v14)
      = select (Wv (Proc.devRef .tc main_v12)) (Wv (Proc.devRef .tc main_v13)) (broadcastInDim S100000 ![] bcast_S_S100000 (id (Wv (Proc.devRef .tc main_cst_2)))) := by
  simp only [hostOps0_1]
  after_results
  simp only [TRef.ofBuf, TRef.toBuf, cast_eq]

set_option maxHeartbeats 4000000 in
/-- The stretch before the first region gathers the per-node factor at each entry's two endpoints and multiplies. -/
theorem stretch_weights (Wv : Valuation τ sig (Elt Ideal)) :
    StableHlo.after hostOps0_2 Wv (Proc.devRef .tc main_v29)
      = Cert.GcnSpec.weights (Wv (Proc.devRef .tc main_v14)) (Wv (Proc.devRef .tc main_v5)) (Wv (Proc.devRef .tc main_v6)) := by
  after_results_simp
  rfl

set_option maxHeartbeats 4000000 in
/-- The stretch after the first region aggregates the region's result. -/
theorem stretch_agg1 (Wv : Valuation τ sig (Elt Ideal)) :
    StableHlo.after hostOps1 Wv (Proc.devRef .tc main_v43)
      = Cert.GcnSpec.agg (Wv (Proc.devRef .tc main_v5)) (Wv (Proc.devRef .tc main_v6)) (Wv (Proc.devRef .tc main_v29)) (Wv (Proc.devRef .tc main_v30)) := by
  after_results_simp
  rfl

set_option maxHeartbeats 4000000 in
/-- The stretch after the second region aggregates the region's result. -/
theorem stretch_agg2 (Wv : Valuation τ sig (Elt Ideal)) :
    StableHlo.after hostOps2 Wv (Proc.devRef .tc main_v57)
      = Cert.GcnSpec.agg (Wv (Proc.devRef .tc main_v5)) (Wv (Proc.devRef .tc main_v6)) (Wv (Proc.devRef .tc main_v29)) (Wv (Proc.devRef .tc main_v44)) := by
  after_results_simp
  rfl

/-! ## The first stretches: sources, targets and weights from the edge list -/

theorem W3_arg2 (c : Dev nD) : W3 m ρ c (Proc.devRef .tc main_arg2) = m ((c : Thread nD τ).loc main_arg2) :=
  (keeps (by no_write)).trans ((keeps (by no_write)).trans (keeps (by no_write)))
theorem W3_arg3 (c : Dev nD) : W3 m ρ c (Proc.devRef .tc main_arg3) = m ((c : Thread nD τ).loc main_arg3) :=
  (keeps (by no_write)).trans ((keeps (by no_write)).trans (keeps (by no_write)))
theorem W3_arg4 (c : Dev nD) : W3 m ρ c (Proc.devRef .tc main_arg4) = m ((c : Thread nD τ).loc main_arg4) :=
  (keeps (by no_write)).trans ((keeps (by no_write)).trans (keeps (by no_write)))
theorem W3_arg5 (c : Dev nD) : W3 m ρ c (Proc.devRef .tc main_arg5) = m ((c : Thread nD τ).loc main_arg5) :=
  (keeps (by no_write)).trans ((keeps (by no_write)).trans (keeps (by no_write)))
theorem W3_arg6 (c : Dev nD) : W3 m ρ c (Proc.devRef .tc main_arg6) = m ((c : Thread nD τ).loc main_arg6) :=
  (keeps (by no_write)).trans ((keeps (by no_write)).trans (keeps (by no_write)))

/-- The sources: the first row of the edge list, then every node. -/
theorem W1_src (c : Dev nD) : W1 m ρ c (Proc.devRef .tc main_v5) = Cert.GcnSpec.srcIdx (m ((c : Thread nD τ).loc main_arg0)) := by
  show StableHlo.after hostOps0 (W0 m ρ c) (Proc.devRef .tc main_v5) = _
  simp only [hostOps0]
  after_results
  rfl

/-- The targets: the second row of the edge list, then every node. -/
theorem W1_dst (c : Dev nD) : W1 m ρ c (Proc.devRef .tc main_v6) = Cert.GcnSpec.dstIdx (m ((c : Thread nD τ).loc main_arg0)) := by
  show StableHlo.after hostOps0 (W0 m ρ c) (Proc.devRef .tc main_v6) = _
  simp only [hostOps0]
  after_results
  rfl

set_option maxHeartbeats 1000000 in
/-- Where a node's degree is positive. -/
theorem W1_pos (c : Dev nD) : W1 m ρ c (Proc.devRef .tc main_v12)
    = cmpf (F := Ideal) .ogt (Cert.GcnSpec.deg (Cert.GcnSpec.dstIdx (m ((c : Thread nD τ).loc main_arg0)))) (broadcastInDim S100000 ![] bcast_S_S100000 (constant S_ .f32 0x00000000#32)) := by
  show StableHlo.after hostOps0 (W0 m ρ c) (Proc.devRef .tc main_v12) = _
  simp only [hostOps0]
  after_results
  rfl

set_option maxHeartbeats 1000000 in
/-- The degrees' inverse square roots. -/
theorem W1_rsqrt (c : Dev nD) : W1 m ρ c (Proc.devRef .tc main_v13) = Host.rsqrt (Cert.GcnSpec.deg (Cert.GcnSpec.dstIdx (m ((c : Thread nD τ).loc main_arg0)))) := by
  show StableHlo.after hostOps0 (W0 m ρ c) (Proc.devRef .tc main_v13) = _
  simp only [hostOps0]
  after_results
  rfl

theorem W1_zero (c : Dev nD) : W1 m ρ c (Proc.devRef .tc main_cst_2) = constant (F := Ideal) S_ .f32 0x00000000#32 := by
  show StableHlo.after hostOps0 (W0 m ρ c) (Proc.devRef .tc main_cst_2) = _
  simp only [hostOps0]
  after_results

/-- The inverse square roots of the degrees, zero at isolated nodes. -/
theorem W2_dis (c : Dev nD) : W2 m ρ c (Proc.devRef .tc main_v14) = Cert.GcnSpec.dis (Cert.GcnSpec.dstIdx (m ((c : Thread nD τ).loc main_arg0))) := by
  refine (stretch_where (W1 m ρ c)).trans ?_
  rw [W1_pos, W1_rsqrt, W1_zero]
  rfl

theorem W2_src (c : Dev nD) : W2 m ρ c (Proc.devRef .tc main_v5) = Cert.GcnSpec.srcIdx (m ((c : Thread nD τ).loc main_arg0)) :=
  (keeps (by no_write)).trans (W1_src m ρ c)
theorem W2_dst (c : Dev nD) : W2 m ρ c (Proc.devRef .tc main_v6) = Cert.GcnSpec.dstIdx (m ((c : Thread nD τ).loc main_arg0)) :=
  (keeps (by no_write)).trans (W1_dst m ρ c)

theorem W3_src (c : Dev nD) : W3 m ρ c (Proc.devRef .tc main_v5) = Cert.GcnSpec.srcIdx (m ((c : Thread nD τ).loc main_arg0)) :=
  (keeps (by no_write)).trans (W2_src m ρ c)
theorem W3_dst (c : Dev nD) : W3 m ρ c (Proc.devRef .tc main_v6) = Cert.GcnSpec.dstIdx (m ((c : Thread nD τ).loc main_arg0)) :=
  (keeps (by no_write)).trans (W2_dst m ρ c)

/-- The weights: the product of the two endpoints' inverse square roots. -/
theorem W3_norm (c : Dev nD) : W3 m ρ c (Proc.devRef .tc main_v29) = Cert.GcnSpec.norm (Cert.GcnSpec.srcIdx (m ((c : Thread nD τ).loc main_arg0))) (Cert.GcnSpec.dstIdx (m ((c : Thread nD τ).loc main_arg0))) := by
  refine (stretch_weights (W2 m ρ c)).trans ?_
  rw [W2_dis, W2_src, W2_dst]
  rfl
/-! ## The first region and the aggregation after it -/

theorem W4_src (c : Dev nD) : W4 m ρ c (Proc.devRef .tc main_v5) = Cert.GcnSpec.srcIdx (m ((c : Thread nD τ).loc main_arg0)) :=
  (W4_of_ne m ρ c main_v5 (by decide)).trans (W3_src m ρ c)
theorem W4_dst (c : Dev nD) : W4 m ρ c (Proc.devRef .tc main_v6) = Cert.GcnSpec.dstIdx (m ((c : Thread nD τ).loc main_arg0)) :=
  (W4_of_ne m ρ c main_v6 (by decide)).trans (W3_dst m ρ c)
theorem W4_norm (c : Dev nD) : W4 m ρ c (Proc.devRef .tc main_v29) = Cert.GcnSpec.norm (Cert.GcnSpec.srcIdx (m ((c : Thread nD τ).loc main_arg0))) (Cert.GcnSpec.dstIdx (m ((c : Thread nD τ).loc main_arg0))) :=
  (W4_of_ne m ρ c main_v29 (by decide)).trans (W3_norm m ρ c)

/-- The first region leaves the embedding times the first weight matrix. -/
theorem W4_h1 (c : Dev nD) : W4 m ρ c (Proc.devRef .tc main_v30) = Cert.GcnSpec.dense (m ((c : Thread nD τ).loc main_arg2)) (m ((c : Thread nD τ).loc main_arg3)) := by
  refine (W4_arr m ρ c 2).trans ?_
  rw [Cert.KernelIdeal.Region0.final (V3 m ρ) c]
  show Cert.KernelIdeal.Region0.rowsTimes (W3 m ρ c (Proc.devRef .tc main_arg2)) (W3 m ρ c (Proc.devRef .tc main_arg3)) = _
  rw [W3_arg2, W3_arg3]
  funext i
  exact (Cert.GcnSpec.dense_apply _ _ i).symm

/-- The stretch after the first region aggregates its result. -/
theorem W5_agg1 (c : Dev nD) : W5 m ρ c (Proc.devRef .tc main_v43) = Cert.GcnSpec.agg (Cert.GcnSpec.srcIdx (m ((c : Thread nD τ).loc main_arg0))) (Cert.GcnSpec.dstIdx (m ((c : Thread nD τ).loc main_arg0))) (Cert.GcnSpec.norm (Cert.GcnSpec.srcIdx (m ((c : Thread nD τ).loc main_arg0))) (Cert.GcnSpec.dstIdx (m ((c : Thread nD τ).loc main_arg0)))) (Cert.GcnSpec.dense (m ((c : Thread nD τ).loc main_arg2)) (m ((c : Thread nD τ).loc main_arg3))) := by
  refine (stretch_agg1 (W4 m ρ c)).trans ?_
  rw [W4_src, W4_dst, W4_norm, W4_h1]

/-! ## The second region and the aggregation after it -/

theorem W5_arg4 (c : Dev nD) : W5 m ρ c (Proc.devRef .tc main_arg4) = m ((c : Thread nD τ).loc main_arg4) :=
  (keeps (by no_write)).trans ((W4_of_ne m ρ c main_arg4 (by decide)).trans (W3_arg4 m ρ c))
theorem W5_arg5 (c : Dev nD) : W5 m ρ c (Proc.devRef .tc main_arg5) = m ((c : Thread nD τ).loc main_arg5) :=
  (keeps (by no_write)).trans ((W4_of_ne m ρ c main_arg5 (by decide)).trans (W3_arg5 m ρ c))

/-- The second region leaves the positive part of the biased aggregate, times the second weight matrix. -/
theorem W6_h2 (c : Dev nD) : W6 m ρ c (Proc.devRef .tc main_v44) = Cert.GcnSpec.dense (Cert.GcnSpec.relu (Cert.GcnSpec.biasAdd (Cert.GcnSpec.agg (Cert.GcnSpec.srcIdx (m ((c : Thread nD τ).loc main_arg0))) (Cert.GcnSpec.dstIdx (m ((c : Thread nD τ).loc main_arg0))) (Cert.GcnSpec.norm (Cert.GcnSpec.srcIdx (m ((c : Thread nD τ).loc main_arg0))) (Cert.GcnSpec.dstIdx (m ((c : Thread nD τ).loc main_arg0)))) (Cert.GcnSpec.dense (m ((c : Thread nD τ).loc main_arg2)) (m ((c : Thread nD τ).loc main_arg3)))) (m ((c : Thread nD τ).loc main_arg4)))) (m ((c : Thread nD τ).loc main_arg5)) := by
  refine (W6_arr m ρ c 3).trans ?_
  rw [Cert.KernelIdeal.Region1.final (V5 m ρ) c]
  show Cert.KernelIdeal.Region1.biasReluTimes (W5 m ρ c (Proc.devRef .tc main_v43)) (W5 m ρ c (Proc.devRef .tc main_arg4)) (W5 m ρ c (Proc.devRef .tc main_arg5)) = _
  rw [W5_agg1, W5_arg4, W5_arg5]
  funext i
  rw [Cert.GcnSpec.dense_apply]
  unfold Cert.KernelIdeal.Region1.biasReluTimes
  refine Finset.sum_congr rfl fun k _ => ?_
  rw [Cert.GcnSpec.relu_apply, Cert.GcnSpec.biasAdd_apply]

theorem W6_src (c : Dev nD) : W6 m ρ c (Proc.devRef .tc main_v5) = Cert.GcnSpec.srcIdx (m ((c : Thread nD τ).loc main_arg0)) :=
  (W6_of_ne m ρ c main_v5 (by decide)).trans ((keeps (by no_write)).trans (W4_src m ρ c))
theorem W6_dst (c : Dev nD) : W6 m ρ c (Proc.devRef .tc main_v6) = Cert.GcnSpec.dstIdx (m ((c : Thread nD τ).loc main_arg0)) :=
  (W6_of_ne m ρ c main_v6 (by decide)).trans ((keeps (by no_write)).trans (W4_dst m ρ c))
theorem W6_norm (c : Dev nD) : W6 m ρ c (Proc.devRef .tc main_v29) = Cert.GcnSpec.norm (Cert.GcnSpec.srcIdx (m ((c : Thread nD τ).loc main_arg0))) (Cert.GcnSpec.dstIdx (m ((c : Thread nD τ).loc main_arg0))) :=
  (W6_of_ne m ρ c main_v29 (by decide)).trans ((keeps (by no_write)).trans (W4_norm m ρ c))

/-- The stretch after the second region aggregates its result. -/
theorem W7_agg2 (c : Dev nD) : W7 m ρ c (Proc.devRef .tc main_v57) = Cert.GcnSpec.agg (Cert.GcnSpec.srcIdx (m ((c : Thread nD τ).loc main_arg0))) (Cert.GcnSpec.dstIdx (m ((c : Thread nD τ).loc main_arg0))) (Cert.GcnSpec.norm (Cert.GcnSpec.srcIdx (m ((c : Thread nD τ).loc main_arg0))) (Cert.GcnSpec.dstIdx (m ((c : Thread nD τ).loc main_arg0)))) (Cert.GcnSpec.dense (Cert.GcnSpec.relu (Cert.GcnSpec.biasAdd (Cert.GcnSpec.agg (Cert.GcnSpec.srcIdx (m ((c : Thread nD τ).loc main_arg0))) (Cert.GcnSpec.dstIdx (m ((c : Thread nD τ).loc main_arg0))) (Cert.GcnSpec.norm (Cert.GcnSpec.srcIdx (m ((c : Thread nD τ).loc main_arg0))) (Cert.GcnSpec.dstIdx (m ((c : Thread nD τ).loc main_arg0)))) (Cert.GcnSpec.dense (m ((c : Thread nD τ).loc main_arg2)) (m ((c : Thread nD τ).loc main_arg3)))) (m ((c : Thread nD τ).loc main_arg4)))) (m ((c : Thread nD τ).loc main_arg5))) := by
  refine (stretch_agg2 (W6 m ρ c)).trans ?_
  rw [W6_src, W6_dst, W6_norm, W6_h2]

/-! ## The third region: the result -/

theorem W7_arg6 (c : Dev nD) : W7 m ρ c (Proc.devRef .tc main_arg6) = m ((c : Thread nD τ).loc main_arg6) :=
  (keeps (by no_write)).trans ((W6_of_ne m ρ c main_arg6 (by decide)).trans ((keeps (by no_write)).trans
    ((W4_of_ne m ρ c main_arg6 (by decide)).trans (W3_arg6 m ρ c))))

/-- The result array after the run is the two-layer network of the argument arrays. -/
theorem out_eq (c : Dev nD) :
    W8 m ρ c (Proc.devRef .tc main_v58) = Cert.GcnSpec.gcn (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 2).trans ?_
  rw [Cert.KernelIdeal.Region2.final (V7 m ρ) c]
  show Cert.KernelIdeal.Region2.rowBias (W7 m ρ c (Proc.devRef .tc main_v57)) (W7 m ρ c (Proc.devRef .tc main_arg6)) = _
  rw [W7_agg2, W7_arg6]
  unfold Cert.GcnSpec.gcn
  funext i
  exact (Cert.GcnSpec.biasAdd_apply _ _ i).symm

end Cert.KernelIdeal.KernelValue

end
-- ==== Proof.RefSide.lean ====
import proofs.«119664_j30382598652232_1_alg».proof.Proof.Spec
import proofs.«119664_j30382598652232_1_alg».proof.Proof.RefRun

/-!
The reference program's result is the two-layer graph convolution of its argument arrays: its run's composed term,
operation by operation, is `GcnSpec.gcn` with every piece unfolded (the second layer recomputes the sources, the
targets and the weights from the same edge list, so both layers aggregate with the same three arrays).
-/

noncomputable section

namespace Cert.ReferenceIdeal.RefValue

open Cert.ReferenceIdeal Cert.ReferenceIdeal.Gen Idealize.ShloMosaic Idealize.ShloMosaic.TcCoe Idealize.SL.Sem

variable {F : FTy → Type} [FloatOps F]

set_option maxRecDepth 8192 in
/-- The reference's result, on every device, is `gcn` of the launch contents of the edge list, the embedding, the two
    weight matrices and the two biases. -/
theorem result_eq (m : (ℓ : Loc nD τ sig) → Buf (Elt F) ℓ) (c : Dev nD) :
    Cert.ReferenceIdeal.Value.res_main_v90 m c
      = Cert.GcnSpec.gcn (m ((c.tc : Thread nD τ).loc main_arg0)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6)) := by
  unfold Cert.ReferenceIdeal.Value.res_main_v90
  rfl

end Cert.ReferenceIdeal.RefValue

end
-- ==== Proof.lean ====
/-
  The graph-convolution network of the kernel program against its jnp reference, over the extended reals.

  Both programs compute `agg (relu (agg (emb · W₁) + b₁) · W₂) + b₂`, where `agg` gathers each edge's source row
  (every node also its own row, by a self loop), scales it by the product of the two endpoints' inverse square-root
  degrees, and sums the scaled rows into the edge's target row. The kernel program runs the two matrix products (with
  the bias and positive part fused into the second) and the last bias add as three pipelined matrix regions over ten
  row blocks, and does the gathers and scatter-sums between them with the same host operations as the reference; the
  reference does everything on the host and computes the degree weights once per layer from the same edge list.

  At the ideal values a block's rows times a weight matrix, accumulated into zero after a format change that is
  the identity, is the row block of the whole product, so each region's output array is the reference's dense stage
  of the region's input arrays, index by index; the row blocks tile the arrays; and the host stretches between the
  regions are the specification's aggregation by unfolding. No algebraic law is used that could fail at an infinity:
  both sides are the same sums of the same products, so the precondition is never opened.
-/
import proofs.«119664_j30382598652232_1_alg».proof.Defs
import proofs.«119664_j30382598652232_1_alg».proof.Proof.Gen.Kernel
import proofs.«119664_j30382598652232_1_alg».proof.Proof.Gen.Kernel.Frame
import proofs.«119664_j30382598652232_1_alg».proof.Proof.Gen.KernelIdeal
import proofs.«119664_j30382598652232_1_alg».proof.Proof.Gen.KernelIdeal.Frame
import proofs.«119664_j30382598652232_1_alg».proof.Proof.Gen.ReferenceIdeal
import proofs.«119664_j30382598652232_1_alg».proof.Proof.Gen.Pre_finite_inputs
import proofs.«119664_j30382598652232_1_alg».proof.Proof.RunValue
import proofs.«119664_j30382598652232_1_alg».proof.Proof.KernelValue
import proofs.«119664_j30382598652232_1_alg».proof.Proof.RefRun
import proofs.«119664_j30382598652232_1_alg».proof.Proof.RefSide

noncomputable section

namespace Cert.Proof

open Idealize.ShloMosaic Idealize.SL.Sem

/-- The word-level kernel program runs, and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The idealized kernel program ends with its result array at the two-layer network of its argument arrays. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v58)
          = Cert.GcnSpec.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  (θ_run Cert.KernelIdeal.defs _ _).mono
    (fun r h c => ⟨(h c).1.trans (Cert.KernelIdeal.KernelValue.out_eq m ρ c), (h c).2⟩)
    (Cert.KernelIdeal.RunValue.run_out (F := Ideal) m ρ)

/-- Run from memories that agree on the arguments, the two idealized programs end with the same result: the
    two-layer network of the arguments. -/
theorem algebraic : Cert.algebraic_KernelIdeal_ReferenceIdeal := by
  intro m ρ m' ρ' _ hagree
  refine ⟨_, kernel_run m ρ, ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5, h6⟩ := hagree c
  rw [Cert.ReferenceIdeal.RefValue.result_eq, h0, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
